-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1x259x512 : Shape := ⟨4, ![128, 1, 259, 512]⟩
abbrev S_ : Shape := ⟨0, ![]⟩

class Facts : Prop where
  bcast_S_S128x1x259x512 : S_.BroadcastsInDim S128x1x259x512 (![] : Fin 0 → Fin S128x1x259x512.rank)
  reducesTo_S128x1x259x512_S_d0_1_2_3 : S128x1x259x512.ReducesTo [0, 1, 2, 3] S_
  h_S_ : 0 < S_.numel

variable [Facts]

def fn {F : FTy → Type} [FloatOps F] (main_arg0 : FVec F S128x1x259x512 .f32) (main_arg1 : FVec F S128x1x259x512 .f32) : IVec S_ 1 :=
  let main_v0 : FVec F S128x1x259x512 .f32 := Host.absf main_arg0
  let main_cst : FVec F S_ .f32 := constant S_ .f32 0x7F800000#32
  let main_v1 : FVec F S128x1x259x512 .f32 := broadcastInDim S128x1x259x512 ![] bcast_S_S128x1x259x512 main_cst
  let main_v2 : IVec S128x1x259x512 1 := cmpf .olt main_v0 main_v1
  let main_c : IVec S_ 1 := constantI S_ 1 1#1
  let main_v3 : IVec S_ 1 := (fun x v => Host.reduce IntOp.andi x v reducesTo_S128x1x259x512_S_d0_1_2_3 h_S_) main_v2 main_c
  let main_v4 : FVec F S128x1x259x512 .f32 := Host.absf main_arg1
  let main_cst_0 : FVec F S_ .f32 := constant S_ .f32 0x7F800000#32
  let main_v5 : FVec F S128x1x259x512 .f32 := broadcastInDim S128x1x259x512 ![] bcast_S_S128x1x259x512 main_cst_0
  let main_v6 : IVec S128x1x259x512 1 := cmpf .olt main_v4 main_v5
  let main_c_1 : IVec S_ 1 := constantI S_ 1 1#1
  let main_v7 : IVec S_ 1 := (fun x v => Host.reduce IntOp.andi x v reducesTo_S128x1x259x512_S_d0_1_2_3 h_S_) main_v6 main_c_1
  let main_v8 : IVec S_ 1 := andi main_v3 main_v7
  main_v8
-- ==== Kernel.lean ====
abbrev S128x1x259x512 : Shape := ⟨4, ![128, 1, 259, 512]⟩
abbrev S128x1x256x512 : Shape := ⟨4, ![128, 1, 256, 512]⟩
abbrev S8x1x259x512 : Shape := ⟨4, ![8, 1, 259, 512]⟩
abbrev S8x1x256x512 : Shape := ⟨4, ![8, 1, 256, 512]⟩
abbrev S8x259x512 : Shape := ⟨3, ![8, 259, 512]⟩
abbrev S8x259x259 : Shape := ⟨3, ![8, 259, 259]⟩
abbrev S8x259 : Shape := ⟨2, ![8, 259]⟩
abbrev S8x259x1 : Shape := ⟨3, ![8, 259, 1]⟩
abbrev S8x1x259 : Shape := ⟨3, ![8, 1, 259]⟩
abbrev S8x256x512 : Shape := ⟨3, ![8, 256, 512]⟩

abbrev nBuf : Space → Nat
  | .hbm => 4
  | .vmem => 8
  | .smem => 0
  | _ => 0

abbrev bufTy : (tb : Table) → Fin (tcTables nBuf tb) → BufTy
  | .hbm, ⟨0, _⟩ => ⟨S128x1x259x512, .f32⟩
  | .hbm, ⟨1, _⟩ => ⟨S128x1x259x512, .f32⟩
  | .hbm, ⟨2, _⟩ => ⟨S128x1x256x512, .f32⟩
  | .hbm, ⟨3, _⟩ => ⟨S128x1x256x512, .f32⟩
  | .local _ .vmem, ⟨0, _⟩ => ⟨S8x1x259x512, .f32⟩
  | .local _ .vmem, ⟨1, _⟩ => ⟨S8x1x259x512, .f32⟩
  | .local _ .vmem, ⟨2, _⟩ => ⟨S8x1x259x512, .f32⟩
  | .local _ .vmem, ⟨3, _⟩ => ⟨S8x1x259x512, .f32⟩
  | .local _ .vmem, ⟨4, _⟩ => ⟨S8x1x256x512, .f32⟩
  | .local _ .vmem, ⟨5, _⟩ => ⟨S8x1x256x512, .f32⟩
  | .local _ .vmem, ⟨6, _⟩ => ⟨S8x1x256x512, .f32⟩
  | .local _ .vmem, ⟨7, _⟩ => ⟨S8x1x256x512, .f32⟩
  | _, _ => ⟨S128x1x259x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x1x259x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1x259x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S8x1x259x512_S8x1x259x512_0_0_0_0 : ∀ a, (![0, 0, 0, 0] : Fin 4 → Nat) a + S8x1x259x512.size a ≤ S8x1x259x512.size a
  h_S8x1x259x512 : 0 < S8x1x259x512.numel
  shapeCasts_S8x1x259x512_S8x259x512 : S8x1x259x512.ShapeCasts S8x259x512
  reduces_S8x259x512_S8x259 : S8x259x512.Reduces [2] S8x259
  shapeCasts_S8x259_S8x259x1 : S8x259.ShapeCasts S8x259x1
  shapeCasts_S8x259_S8x1x259 : S8x259.ShapeCasts S8x1x259
  broadcasts_S8x259x1_S8x259x259 : S8x259x1.Broadcasts S8x259x259
  broadcasts_S8x1x259_S8x259x259 : S8x1x259.Broadcasts S8x259x259
  reduces_S8x259x259_S8x259 : S8x259x259.Reduces [1] S8x259
  reduces_S8x259x259_S8x259_2 : S8x259x259.Reduces [2] S8x259
  broadcasts_S8x259x1_S8x259x512 : S8x259x1.Broadcasts S8x259x512
  slices_S8x259x512_o0_0_0_S8x256x512 : S8x259x512.Slices ![0, 0, 0] S8x256x512
  slices_S8x259x512_o0_1_0_S8x256x512 : S8x259x512.Slices ![0, 1, 0] S8x256x512
  slices_S8x259x512_o0_2_0_S8x256x512 : S8x259x512.Slices ![0, 2, 0] S8x256x512
  slices_S8x259x512_o0_3_0_S8x256x512 : S8x259x512.Slices ![0, 3, 0] S8x256x512
  inb_S8x1x256x512_S8x1x256x512_0_0_0_0 : ∀ a, (![0, 0, 0, 0] : Fin 4 → Nat) a + S8x1x256x512.size a ≤ S8x1x256x512.size a
  h_S8x1x256x512 : 0 < S8x1x256x512.numel
  shapeCasts_S8x1x256x512_S8x256x512 : S8x1x256x512.ShapeCasts S8x256x512
  shapeCasts_S8x256x512_S8x1x256x512 : S8x256x512.ShapeCasts S8x1x256x512
  dot_S8x259x512_S8x259x512_S8x259x259_2_2_1_1_0_0_wf : DotDims.WF S8x259x512 S8x259x512 S8x259x259 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1x259x512.size a ≤ S128x1x259x512.size a
  hwx0_0 : ∀ i : grid0.Coords, EltTy.bits .f32 = 32 ∨ (Rect.block (s := S128x1x259x512) S8x1x259x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x1x259x512.size a ≤ S128x1x259x512.size a
  hwx0_1 : ∀ i : grid0.Coords, EltTy.bits .f32 = 32 ∨ (Rect.block (s := S128x1x259x512) S8x1x259x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1x256x512.size a ≤ S128x1x256x512.size a
  hwx0_2 : ∀ i : grid0.Coords, EltTy.bits .f32 = 32 ∨ (Rect.block (s := S128x1x256x512) S8x1x256x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1x256x512.size a ≤ S128x1x256x512.size a
  hwx0_3 : ∀ i : grid0.Coords, EltTy.bits .f32 = 32 ∨ (Rect.block (s := S128x1x256x512) S8x1x256x512.size (cc0_transform_3 i) (hinb0_3 i)).WholeWords (EltTy.packing .f32)

variable [Facts₀]

def dot_S8x259x512_S8x259x512_S8x259x259_2_2_1_1_0_0 : DotDims S8x259x512 S8x259x512 S8x259x259 where
  lhsContracting := [2]
  rhsContracting := [2]
  lhsNonContracting := [1]
  rhsNonContracting := [1]
  lhsBatch := [0]
  rhsBatch := [0]
  wf := dot_S8x259x512_S8x259x512_S8x259x259_2_2_1_1_0_0_wf

abbrev win0_0 : Pipeline.Window sig grid0 :=
  Pipeline.Window.ofSpec (Memref.whole main_arg0) S8x1x259x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x1x259x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S8x1x256x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S8x1x256x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S128x1x259x512 : Shape := ⟨4, ![128, 1, 259, 512]⟩
abbrev S128x259x512 : Shape := ⟨3, ![128, 259, 512]⟩
abbrev S_ : Shape := ⟨0, ![]⟩
abbrev S128x259 : Shape := ⟨2, ![128, 259]⟩
abbrev S128x259x1 : Shape := ⟨3, ![128, 259, 1]⟩
abbrev S128x1x259 : Shape := ⟨3, ![128, 1, 259]⟩
abbrev S128x259x259 : Shape := ⟨3, ![128, 259, 259]⟩
abbrev S128x256x512 : Shape := ⟨3, ![128, 256, 512]⟩
abbrev S128x1x256x512 : Shape := ⟨4, ![128, 1, 256, 512]⟩

abbrev nBuf : Space → Nat
  | .hbm => 62
  | .vmem => 0
  | .smem => 0
  | _ => 0

abbrev bufTy : (tb : Table) → Fin (tcTables nBuf tb) → BufTy
  | .hbm, ⟨0, _⟩ => ⟨S128x1x259x512, .f32⟩
  | .hbm, ⟨1, _⟩ => ⟨S128x1x259x512, .f32⟩
  | .hbm, ⟨2, _⟩ => ⟨S128x259x512, .f32⟩
  | .hbm, ⟨3, _⟩ => ⟨S128x259x512, .f32⟩
  | .hbm, ⟨4, _⟩ => ⟨S128x259x512, .f32⟩
  | .hbm, ⟨5, _⟩ => ⟨S_, .f32⟩
  | .hbm, ⟨6, _⟩ => ⟨S128x259, .f32⟩
  | .hbm, ⟨7, _⟩ => ⟨S128x259x1, .f32⟩
  | .hbm, ⟨8, _⟩ => ⟨S128x259x512, .f32⟩
  | .hbm, ⟨9, _⟩ => ⟨S_, .f32⟩
  | .hbm, ⟨10, _⟩ => ⟨S128x259, .f32⟩
  | .hbm, ⟨11, _⟩ => ⟨S128x1x259, .f32⟩
  | .hbm, ⟨12, _⟩ => ⟨S128x259x259, .f32⟩
  | .hbm, ⟨13, _⟩ => ⟨S128x259x259, .f32⟩
  | .hbm, ⟨14, _⟩ => ⟨S128x259x259, .f32⟩
  | .hbm, ⟨15, _⟩ => ⟨S128x259x259, .f32⟩
  | .hbm, ⟨16, _⟩ => ⟨S_, .f32⟩
  | .hbm, ⟨17, _⟩ => ⟨S128x259x259, .f32⟩
  | .hbm, ⟨18, _⟩ => ⟨S128x259x259, .f32⟩
  | .hbm, ⟨19, _⟩ => ⟨S128x259x259, .f32⟩
  | .hbm, ⟨20, _⟩ => ⟨S_, .f32⟩
  | .hbm, ⟨21, _⟩ => ⟨S128x259x259, .f32⟩
  | .hbm, ⟨22, _⟩ => ⟨S128x259x259, .f32⟩
  | .hbm, ⟨23, _⟩ => ⟨S128x259x259, .f32⟩
  | .hbm, ⟨24, _⟩ => ⟨S_, .f32⟩
  | .hbm, ⟨25, _⟩ => ⟨S128x259x259, .f32⟩
  | .hbm, ⟨26, _⟩ => ⟨S128x259x259, .f32⟩
  | .hbm, ⟨27, _⟩ => ⟨S_, .f32⟩
  | .hbm, ⟨28, _⟩ => ⟨S128x259x259, .f32⟩
  | .hbm, ⟨29, _⟩ => ⟨S128x259x259, .f32⟩
  | .hbm, ⟨30, _⟩ => ⟨S_, .f32⟩
  | .hbm, ⟨31, _⟩ => ⟨S128x259, .f32⟩
  | .hbm, ⟨32, _⟩ => ⟨S_, .f32⟩
  | .hbm, ⟨33, _⟩ => ⟨S128x259, .f32⟩
  | .hbm, ⟨34, _⟩ => ⟨S128x259x1, .f32⟩
  | .hbm, ⟨35, _⟩ => ⟨S128x259x512, .f32⟩
  | .hbm, ⟨36, _⟩ => ⟨S128x259x512, .f32⟩
  | .hbm, ⟨37, _⟩ => ⟨S128x259x1, .f32⟩
  | .hbm, ⟨38, _⟩ => ⟨S128x259x512, .f32⟩
  | .hbm, ⟨39, _⟩ => ⟨S128x259x512, .f32⟩
  | .hbm, ⟨40, _⟩ => ⟨S128x256x512, .f32⟩
  | .hbm, ⟨41, _⟩ => ⟨S_, .f32⟩
  | .hbm, ⟨42, _⟩ => ⟨S128x256x512, .f32⟩
  | .hbm, ⟨43, _⟩ => ⟨S128x256x512, .f32⟩
  | .hbm, ⟨44, _⟩ => ⟨S128x256x512, .f32⟩
  | .hbm, ⟨45, _⟩ => ⟨S128x256x512, .f32⟩
  | .hbm, ⟨46, _⟩ => ⟨S128x256x512, .f32⟩
  | .hbm, ⟨47, _⟩ => ⟨S128x256x512, .f32⟩
  | .hbm, ⟨48, _⟩ => ⟨S128x256x512, .f32⟩
  | .hbm, ⟨49, _⟩ => ⟨S128x256x512, .f32⟩
  | .hbm, ⟨50, _⟩ => ⟨S128x256x512, .f32⟩
  | .hbm, ⟨51, _⟩ => ⟨S_, .f32⟩
  | .hbm, ⟨52, _⟩ => ⟨S128x256x512, .f32⟩
  | .hbm, ⟨53, _⟩ => ⟨S128x256x512, .f32⟩
  | .hbm, ⟨54, _⟩ => ⟨S128x256x512, .f32⟩
  | .hbm, ⟨55, _⟩ => ⟨S128x256x512, .f32⟩
  | .hbm, ⟨56, _⟩ => ⟨S128x256x512, .f32⟩
  | .hbm, ⟨57, _⟩ => ⟨S128x256x512, .f32⟩
  | .hbm, ⟨58, _⟩ => ⟨S128x256x512, .f32⟩
  | .hbm, ⟨59, _⟩ => ⟨S128x256x512, .f32⟩
  | .hbm, ⟨60, _⟩ => ⟨S128x1x256x512, .f32⟩
  | .hbm, ⟨61, _⟩ => ⟨S128x1x256x512, .f32⟩
  | _, _ => ⟨S128x1x259x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_v21 : Ref sig .tc := ⟨.hbm, 29, rfl⟩
abbrev main_cst_5 : Ref sig .tc := ⟨.hbm, 30, rfl⟩
abbrev main_v22 : Ref sig .tc := ⟨.hbm, 31, rfl⟩
abbrev main_cst_6 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_7 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_8 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩

abbrev nD : Nat := 1
abbrev τ : Topo := Topo.v7x

variable {F : FTy → Type} [FloatOps F]

class Facts₀ : Prop where
  shapeCasts_S128x1x259x512_S128x259x512 : S128x1x259x512.ShapeCasts S128x259x512
  reducesTo_S128x259x512_S128x259_d2 : S128x259x512.ReducesTo [2] S128x259
  h_S_ : 0 < S_.numel
  bcast_S128x259_S128x259x1_0_1 : S128x259.BroadcastsInDim S128x259x1 (![0, 1] : Fin 2 → Fin S128x259x1.rank)
  bcast_S128x259_S128x1x259_0_2 : S128x259.BroadcastsInDim S128x1x259 (![0, 2] : Fin 2 → Fin S128x1x259.rank)
  bcast_S128x259x1_S128x259x259_0_1_2 : S128x259x1.BroadcastsInDim S128x259x259 (![0, 1, 2] : Fin 3 → Fin S128x259x259.rank)
  bcast_S128x1x259_S128x259x259_0_1_2 : S128x1x259.BroadcastsInDim S128x259x259 (![0, 1, 2] : Fin 3 → Fin S128x259x259.rank)
  bcast_S_S128x259x259 : S_.BroadcastsInDim S128x259x259 (![] : Fin 0 → Fin S128x259x259.rank)
  reducesTo_S128x259x259_S128x259_d1 : S128x259x259.ReducesTo [1] S128x259
  reducesTo_S128x259x259_S128x259_d2 : S128x259x259.ReducesTo [2] S128x259
  bcast_S128x259x1_S128x259x512_0_1_2 : S128x259x1.BroadcastsInDim S128x259x512 (![0, 1, 2] : Fin 3 → Fin S128x259x512.rank)
  slices_S128x259x512_S128x256x512_0_0_0 : S128x259x512.Slices ![0, 0, 0] S128x256x512
  bcast_S_S128x256x512 : S_.BroadcastsInDim S128x256x512 (![] : Fin 0 → Fin S128x256x512.rank)
  slices_S128x259x512_S128x256x512_0_1_0 : S128x259x512.Slices ![0, 1, 0] S128x256x512
  slices_S128x259x512_S128x256x512_0_2_0 : S128x259x512.Slices ![0, 2, 0] S128x256x512
  slices_S128x259x512_S128x256x512_0_3_0 : S128x259x512.Slices ![0, 3, 0] S128x256x512
  bcast_S128x256x512_S128x1x256x512_0_2_3 : S128x256x512.BroadcastsInDim S128x1x256x512 (![0, 2, 3] : Fin 3 → Fin S128x1x256x512.rank)
  dot_S128x259x512_S128x259x512_S128x259x259_2_2_1_1_0_0_wf : DotDims.WF S128x259x512 S128x259x512 S128x259x259 [2] [2] [1] [1] [0] [0]

variable [Facts₀]

def dot_S128x259x512_S128x259x512_S128x259x259_2_2_1_1_0_0 : DotDims S128x259x512 S128x259x512 S128x259x259 where
  lhsContracting := [2]
  rhsContracting := [2]
  lhsNonContracting := [1]
  rhsNonContracting := [1]
  lhsBatch := [0]
  rhsBatch := [0]
  wf := dot_S128x259x512_S128x259x512_S128x259x259_2_2_1_1_0_0_wf

class Facts : Prop extends Facts₀ where

variable [Facts]
-- ==== Proof.Attention.lean ====
/-
  What both programs compute, on the extended reals, for ONE batch entry.

  The inputs of a batch entry are two families of 259 rows of 512 entries, `a` and `b`. The squared distance of row `i` of
  `a` from row `j` of `b` is taken in its expanded form, |a_i|² + |b_j|² − 2·⟨a_i, b_j⟩, cut off below at 0; the match score
  of the pair is 1 / (1 + its square root). Row `k` of `a` is weighted by the sum of the scores of column `k` (over `i`),
  row `k` of `b` by the sum of the scores of row `k` (over `j`); an output row `r` (of 256) is the sum of the four weighted
  rows `r, r+1, r+2, r+3`, added left to right.

  The three float literals are kept as their bit patterns (1.0, 2.0 and 0.0): both programs print the same words, so
  they are never evaluated here.

  The two whole-array results are these per-batch formulas read at the batch coordinate of the output index; the arrays
  are [128, 1, 259, 512] in and [128, 1, 256, 512] out, the unit axis carrying no information.
-/
import Idealize.ShloMosaic.PureOps.Ideal
import Idealize.ShloMosaic.Lib.ValueIdx

noncomputable section

open scoped BigOperators

namespace Cert.Abcnn

open Idealize.ShloMosaic Idealize.ShloMosaic.ValueIdx

/-- One batch entry of an input: 259 rows of 512 extended reals. -/
abbrev Rows := Fin 259 → Fin 512 → EReal

/-- |a_i|²: the sum of the squares of row `i`. -/
def sqNorm (a : Rows) (i : Fin 259) : EReal := ∑ d : Fin 512, a i d * a i d

/-- ⟨a_i, b_j⟩: the inner product of row `i` of `a` with row `j` of `b`. -/
def rowDot (a b : Rows) (i j : Fin 259) : EReal := ∑ d : Fin 512, a i d * b j d

/-- The match score of rows `a_i` and `b_j`: 1 / (1 + √(max (|a_i|² + |b_j|² − 2·⟨a_i, b_j⟩) 0)). -/
def score (a b : Rows) (i j : Fin 259) : EReal :=
  Ideal.div (Ideal.ofBits .f32 0x3F800000#32)
    (Ideal.ofBits .f32 0x3F800000#32
      + Ideal.sqrt (max ((sqNorm a i + sqNorm b j) - Ideal.ofBits .f32 0x40000000#32 * rowDot a b i j)
          (Ideal.ofBits .f32 0x00000000#32)))

/-- The weight of row `k` of `a`: the scores of column `k`, summed over the rows of `a`. -/
def colWeight (a b : Rows) (k : Fin 259) : EReal := ∑ i : Fin 259, score a b i k

/-- The weight of row `k` of `b`: the scores of row `k`, summed over the rows of `b`. -/
def rowWeight (a b : Rows) (k : Fin 259) : EReal := ∑ j : Fin 259, score a b k j

/-- Output row `r` at column `d`: the weighted rows `r, r+1, r+2, r+3` of `a`, added left to right. -/
def windowSum (w : Fin 259 → EReal) (a : Rows) (r : Fin 256) (d : Fin 512) : EReal :=
  ((w ⟨r.val, by omega⟩ * a ⟨r.val, by omega⟩ d + w ⟨r.val + 1, by omega⟩ * a ⟨r.val + 1, by omega⟩ d)
      + w ⟨r.val + 2, by omega⟩ * a ⟨r.val + 2, by omega⟩ d)
    + w ⟨r.val + 3, by omega⟩ * a ⟨r.val + 3, by omega⟩ d

/-- The input arrays' shape and the output arrays' shape. -/
abbrev SIn : Shape := ⟨4, ![128, 1, 259, 512]⟩
abbrev SOut : Shape := ⟨4, ![128, 1, 256, 512]⟩

/-- Batch entry `n` of an input array. -/
def rowsOf (x : SIn.Idx → EReal) (n : Fin 128) : Rows := fun i d => x (ix4 n (0 : Fin 1) i d)

/-- The first result: at `(n, 0, r, d)`, the window sum of the rows of `x1`'s entry `n` under the column weights. -/
def pooledA (x1 x2 : SIn.Idx → EReal) : SOut.Idx → EReal := fun y =>
  windowSum (colWeight (rowsOf x1 (y 0)) (rowsOf x2 (y 0))) (rowsOf x1 (y 0)) (y 2) (y 3)

/-- The second result: at `(n, 0, r, d)`, the window sum of the rows of `x2`'s entry `n` under the row weights. -/
def pooledB (x1 x2 : SIn.Idx → EReal) : SOut.Idx → EReal := fun y =>
  windowSum (rowWeight (rowsOf x1 (y 0)) (rowsOf x2 (y 0))) (rowsOf x2 (y 0)) (y 2) (y 3)

end Cert.Abcnn

end
-- ==== Proof.LibUnitAxis3.lean ====
/-
  Arrays of rank 2 to 4 read at an index.

  Two indices of one shape are equal as soon as their coordinates are equal as numbers.

  Per-row values of an [a, b] array, kept as a rank-3 array with one unit axis, and that array spread back over a third axis:

    [a, b] cast to [a, b, 1]          reads, at (p, q, u), the operand at (p, q);
    [a, b] cast to [a, 1, b]          reads, at (p, u, q), the operand at (p, q);
    [a, b, 1] broadcast to [a, b, c]  reads, at (p, q, r), the operand at (p, q, 0);
    [a, 1, b] broadcast to [a, c, b]  reads, at (p, r, q), the operand at (p, 0, q).

  The casts keep the row-major position (a unit axis contributes a factor 1 and a summand 0); the broadcasts read
  coordinate 0 on the unit axis and the index's own coordinate elsewhere.
-/
import Idealize.ShloMosaic.Lib.ValueIdx
import Idealize.ShloMosaic.Lib.Pipeline.Value

namespace Idealize.ShloMosaic.UnitAxis3

open Idealize.ShloMosaic Idealize.ShloMosaic.ValueIdx

/-- Rank-2 indices with equal coordinates are equal. -/
theorem idx2_ext {n0 n1 : ℕ} (u v : (⟨2, ![n0, n1]⟩ : Shape).Idx) (h0 : (u 0).val = (v 0).val)
    (h1 : (u 1).val = (v 1).val) : u = v := by
  funext a; apply Fin.ext
  match a with
  | ⟨0, _⟩ => exact h0
  | ⟨1, _⟩ => exact h1

/-- Rank-3 indices with equal coordinates are equal. -/
theorem idx3_ext {n0 n1 n2 : ℕ} (u v : (⟨3, ![n0, n1, n2]⟩ : Shape).Idx) (h0 : (u 0).val = (v 0).val)
    (h1 : (u 1).val = (v 1).val) (h2 : (u 2).val = (v 2).val) : u = v := by
  funext a; apply Fin.ext
  match a with
  | ⟨0, _⟩ => exact h0
  | ⟨1, _⟩ => exact h1
  | ⟨2, _⟩ => exact h2

/-- Rank-4 indices with equal coordinates are equal. -/
theorem idx4_ext {n0 n1 n2 n3 : ℕ} (u v : (⟨4, ![n0, n1, n2, n3]⟩ : Shape).Idx) (h0 : (u 0).val = (v 0).val)
    (h1 : (u 1).val = (v 1).val) (h2 : (u 2).val = (v 2).val) (h3 : (u 3).val = (v 3).val) : u = v := by
  funext a; apply Fin.ext
  match a with
  | ⟨0, _⟩ => exact h0
  | ⟨1, _⟩ => exact h1
  | ⟨2, _⟩ => exact h2
  | ⟨3, _⟩ => exact h3

variable {α : Type}

/-- An `[a, b]` array cast to `[a, b, 1]` reads, at `(p, q, u)`, the operand at `(p, q)`: position `(p·b + q)·1 + u` with `u = 0`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    rw [hu, Nat.mul_one, Nat.add_zero])

/-- An `[a, b]` array cast to `[a, 1, b]` reads, at `(p, u, q)`, the operand at `(p, q)`: position `(p·1 + u)·b + q` with `u = 0`. -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (q : Fin b) :
    shapeCast ⟨3, ![a, 1, b]⟩ x h (ix3 p u q) = x (ix2 p q) :=
  shapeCast_apply x h _ _ (by
    have hu : u.val = 0 := by omega
    rw [Shape.rowMajor_val_two, Shape.rowMajor_val_three]
    show p.val * b + q.val = (p.val * 1 + u.val) * b + q.val
    rw [hu, Nat.mul_one, Nat.add_zero])

/-- An `[a, b, 1]` array broadcast to `[a, b, c]` reads, at `(p, q, r)`, the operand at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ =>
    show 0 = if (1 : ℕ) = 1 then 0 else r.val
    rw [if_pos rfl]

/-- An `[a, 1, b]` array broadcast to `[a, c, b]` reads, at `(p, r, q)`, the operand at `(p, 0, q)`. -/
theorem broadcastTo_a1b_acb_apply {a b c : ℕ} (v : (⟨3, ![a, 1, b]⟩ : Shape).Idx → α)
    (h : (⟨3, ![a, 1, b]⟩ : Shape).Broadcasts ⟨3, ![a, c, b]⟩) (p : Fin a) (r : Fin c) (q : Fin b) :
    broadcastTo ⟨3, ![a, c, b]⟩ v h (ix3 p r q) = v (ix3 p (0 : Fin 1) q) := by
  refine broadcastTo_apply v h (ix3 p r q) (ix3 p (0 : Fin 1) q) fun ax => ?_
  match ax with
  | ⟨0, _⟩ =>
    show p.val = if a = 1 then 0 else p.val
    split
    · have := p.isLt; omega
    · rfl
  | ⟨1, _⟩ =>
    show 0 = if (1 : ℕ) = 1 then 0 else r.val
    rw [if_pos rfl]
  | ⟨2, _⟩ =>
    show q.val = if b = 1 then 0 else q.val
    split
    · have := q.isLt; omega
    · rfl

end Idealize.ShloMosaic.UnitAxis3
-- ==== Proof.BodyPooled.lean ====
/-
  One grid point's body, read at an index: what the kernel leaves in its two output blocks is the per-batch formulas of
  Attention.lean applied to the rows of the two input blocks.

  A block holds 8 batch entries, [8, 1, 259, 512]; dropping the unit axis is a cast that keeps the row-major position.
  The batched matrix product into a zero accumulator is, at (n, i, j), the sum over the contracted coordinate of the
  products of a_i and b_j of entry n: the batch axis comes from the output's first coordinate, the free axis from its
  second (left) or third (right) one, the contracted axis from the summation index. The two sums of squares are lane
  sums; kept as a column [8, 259, 1] or as a row [8, 1, 259] and broadcast to [8, 259, 259], they read |a_i|² at (n, i)
  and |b_j|² at (n, j). So the score array at (n, i, j) is the match score; its sum over axis 1 is the column weight and
  over axis 2 the row weight. The generated value leg already reads the stored block as four products weight × entry at
  rows r .. r+3, added left to right: that is the window sum.
-/
import proofs.«115649_j77996606095982_2_alg».proof.Proof.Gen.KernelIdeal.Value
import proofs.«115649_j77996606095982_2_alg».proof.Proof.Attention
import proofs.«115649_j77996606095982_2_alg».proof.Proof.LibUnitAxis3
import Idealize.ShloMosaic.Lib.ValueIdx
import Idealize.ShloMosaic.PureOps.Ideal.Laws

noncomputable section

open scoped BigOperators

namespace Cert.KernelIdeal.Body

open Cert.KernelIdeal Cert.KernelIdeal.Gen Cert.KernelIdeal.Value Cert.Abcnn
open Idealize.ShloMosaic Idealize.ShloMosaic.ValueIdx Idealize.ShloMosaic.UnitAxis3

/-- Batch entry `n` (of 8) of an input block. -/
def blockRows (P : Vec Ideal S8x1x259x512 .f32) (n : Fin 8) : Rows := fun i d => P (ix4 n (0 : Fin 1) i d)

/-- Entry `n` of block `b` is entry `8·b + n` of the array. -/
abbrev entry (b : ℕ) (hb : b < 16) (n : Fin 8) : Fin 128 := ⟨b * 8 + n.val, by have := n.isLt; omega⟩

variable (P0 P1 : Vec Ideal S8x1x259x512 .f32)

/-- The first block without its unit axis, at (n, i, d): entry (n, 0, i, d). -/
theorem pay3_at (n : Fin 8) (i : Fin 259) (d : Fin 512) :
    k0_pay3 (F := Ideal) P0 (ix3 n i d) = blockRows P0 n i d := by
  unfold k0_pay3
  have hn := n.isLt; have hi := i.isLt; have hd := d.isLt
  exact shapeCast_apply P0 shapeCasts_S8x1x259x512_S8x259x512 (ix3 n i d) (ix4 n (0 : Fin 1) i d) (by
    rw [Shape.rowMajor_val_four, Shape.rowMajor_val_three]
    show ((n.val * 1 + 0) * 259 + i.val) * 512 + d.val = (n.val * 259 + i.val) * 512 + d.val
    omega)

/-- The second block without its unit axis, at (n, i, d): entry (n, 0, i, d). -/
theorem pay4_at (n : Fin 8) (i : Fin 259) (d : Fin 512) :
    k0_pay4 (F := Ideal) P1 (ix3 n i d) = blockRows P1 n i d := by
  unfold k0_pay4
  have hn := n.isLt; have hi := i.isLt; have hd := d.isLt
  exact shapeCast_apply P1 shapeCasts_S8x1x259x512_S8x259x512 (ix3 n i d) (ix4 n (0 : Fin 1) i d) (by
    rw [Shape.rowMajor_val_four, Shape.rowMajor_val_three]
    show ((n.val * 1 + 0) * 259 + i.val) * 512 + d.val = (n.val * 259 + i.val) * 512 + d.val
    omega)

/-- One term of the first lane sum: the square of a_i at k. -/
theorem sqA_term (n : Fin 8) (i : Fin 259) (k : Fin 512) :
    (mulf (k0_pay3 (F := Ideal) P0) (k0_pay3 (F := Ideal) P0)) (reduces_S8x259x512_S8x259.lift (ix2 n i) k)
      = blockRows P0 n i k * blockRows P0 n i k := by
  have e : reduces_S8x259x512_S8x259.lift (ix2 n i) k = ix3 n i k := idx3_ext _ _ rfl rfl rfl
  rw [e]
  show k0_pay3 (F := Ideal) P0 (ix3 n i k) * k0_pay3 (F := Ideal) P0 (ix3 n i k) = _
  rw [pay3_at]

/-- The lane sum of the first block's squares at (n, i) is |a_i|² of entry n. -/
theorem sqA_at (n : Fin 8) (i : Fin 259) :
    (multiReduction .add [2] S8x259 (mulf (k0_pay3 (F := Ideal) P0) (k0_pay3 (F := Ideal) P0)) 0x00000000#32 reduces_S8x259x512_S8x259 (.inl rfl) rfl) (ix2 n i) = sqNorm (blockRows P0 n) i := by
  refine (Ideal.multiReduction_add_single _ 0x00000000#32 reduces_S8x259x512_S8x259 (.inl rfl) rfl (ix2 n i)).trans ?_
  unfold sqNorm
  exact Finset.sum_congr rfl fun k _ => sqA_term P0 n i k

/-- One term of the second lane sum: the square of b_i at k. -/
theorem sqB_term (n : Fin 8) (i : Fin 259) (k : Fin 512) :
    (mulf (k0_pay4 (F := Ideal) P1) (k0_pay4 (F := Ideal) P1)) (reduces_S8x259x512_S8x259.lift (ix2 n i) k)
      = blockRows P1 n i k * blockRows P1 n i k := by
  have e : reduces_S8x259x512_S8x259.lift (ix2 n i) k = ix3 n i k := idx3_ext _ _ rfl rfl rfl
  rw [e]
  show k0_pay4 (F := Ideal) P1 (ix3 n i k) * k0_pay4 (F := Ideal) P1 (ix3 n i k) = _
  rw [pay4_at]

/-- The lane sum of the second block's squares at (n, i) is |b_i|² of entry n. -/
theorem sqB_at (n : Fin 8) (i : Fin 259) :
    (multiReduction .add [2] S8x259 (mulf (k0_pay4 (F := Ideal) P1) (k0_pay4 (F := Ideal) P1)) 0x00000000#32 reduces_S8x259x512_S8x259 (.inl rfl) rfl) (ix2 n i) = sqNorm (blockRows P1 n) i := by
  refine (Ideal.multiReduction_add_single _ 0x00000000#32 reduces_S8x259x512_S8x259 (.inl rfl) rfl (ix2 n i)).trans ?_
  unfold sqNorm
  exact Finset.sum_congr rfl fun k _ => sqB_term P1 n i k

/-- |a_i|² kept as a column and broadcast along j reads, at (n, i, j), |a_i|² of entry n. -/
theorem sqA_bcast_at (n : Fin 8) (i j : Fin 259) :
    (broadcastTo S8x259x259 (shapeCast S8x259x1 (multiReduction .add [2] S8x259 (mulf (k0_pay3 (F := Ideal) P0) (k0_pay3 (F := Ideal) P0)) 0x00000000#32 reduces_S8x259x512_S8x259 (.inl rfl) rfl) shapeCasts_S8x259_S8x259x1) broadcasts_S8x259x1_S8x259x259) (ix3 n i j) = sqNorm (blockRows P0 n) i := by
  rw [broadcastTo_ab1_abc_apply, shapeCast_ab_ab1_apply, sqA_at]

/-- |b_j|² kept as a row and broadcast along i reads, at (n, i, j), |b_j|² of entry n. -/
theorem sqB_bcast_at (n : Fin 8) (i j : Fin 259) :
    (broadcastTo S8x259x259 (shapeCast S8x1x259 (multiReduction .add [2] S8x259 (mulf (k0_pay4 (F := Ideal) P1) (k0_pay4 (F := Ideal) P1)) 0x00000000#32 reduces_S8x259x512_S8x259 (.inl rfl) rfl) shapeCasts_S8x259_S8x1x259) broadcasts_S8x1x259_S8x259x259) (ix3 n i j) = sqNorm (blockRows P1 n) j := by
  rw [broadcastTo_a1b_acb_apply, shapeCast_ab_a1b_apply, sqB_at]

/-! The batched product's operand indices, axis by axis: batch, free, contracted. -/

theorem lhs_axis0 (y : S8x259x259.Idx) (q : dot_S8x259x512_S8x259x512_S8x259x259_2_2_1_1_0_0.contr.Idx) :
    (dot_S8x259x512_S8x259x512_S8x259x259_2_2_1_1_0_0.lhsIdx y q 0).val = (y 0).val := by
  unfold DotDims.lhsIdx
  rw [dif_pos (show (0 : Fin S8x259x512.rank) ∈ dot_S8x259x512_S8x259x512_S8x259x259_2_2_1_1_0_0.lhsBatch by decide)]
  rfl
theorem lhs_axis1 (y : S8x259x259.Idx) (q : dot_S8x259x512_S8x259x512_S8x259x259_2_2_1_1_0_0.contr.Idx) :
    (dot_S8x259x512_S8x259x512_S8x259x259_2_2_1_1_0_0.lhsIdx y q 1).val = (y 1).val := by
  unfold DotDims.lhsIdx
  rw [dif_neg (show ¬(1 : Fin S8x259x512.rank) ∈ dot_S8x259x512_S8x259x512_S8x259x259_2_2_1_1_0_0.lhsBatch by decide),
    dif_pos (show (1 : Fin S8x259x512.rank) ∈ dot_S8x259x512_S8x259x512_S8x259x259_2_2_1_1_0_0.lhsNonContracting by decide)]
  rfl
theorem lhs_axis2 (y : S8x259x259.Idx) (q : dot_S8x259x512_S8x259x512_S8x259x259_2_2_1_1_0_0.contr.Idx) :
    (dot_S8x259x512_S8x259x512_S8x259x259_2_2_1_1_0_0.lhsIdx y q 2).val = (q ⟨0, by decide⟩).val :=
  dot_S8x259x512_S8x259x512_S8x259x259_2_2_1_1_0_0.lhsIdx_val_of_single rfl y q
theorem rhs_axis0 (y : S8x259x259.Idx) (q : dot_S8x259x512_S8x259x512_S8x259x259_2_2_1_1_0_0.contr.Idx) :
    (dot_S8x259x512_S8x259x512_S8x259x259_2_2_1_1_0_0.rhsIdx y q 0).val = (y 0).val := by
  unfold DotDims.rhsIdx
  rw [dif_pos (show (0 : Fin S8x259x512.rank) ∈ dot_S8x259x512_S8x259x512_S8x259x259_2_2_1_1_0_0.rhsBatch by decide)]
  rfl
theorem rhs_axis1 (y : S8x259x259.Idx) (q : dot_S8x259x512_S8x259x512_S8x259x259_2_2_1_1_0_0.contr.Idx) :
    (dot_S8x259x512_S8x259x512_S8x259x259_2_2_1_1_0_0.rhsIdx y q 1).val = (y 2).val := by
  unfold DotDims.rhsIdx
  rw [dif_neg (show ¬(1 : Fin S8x259x512.rank) ∈ dot_S8x259x512_S8x259x512_S8x259x259_2_2_1_1_0_0.rhsBatch by decide),
    dif_pos (show (1 : Fin S8x259x512.rank) ∈ dot_S8x259x512_S8x259x512_S8x259x259_2_2_1_1_0_0.rhsNonContracting by decide)]
  rfl
theorem rhs_axis2 (y : S8x259x259.Idx) (q : dot_S8x259x512_S8x259x512_S8x259x259_2_2_1_1_0_0.contr.Idx) :
    (dot_S8x259x512_S8x259x512_S8x259x259_2_2_1_1_0_0.rhsIdx y q 2).val = (q ⟨0, by decide⟩).val :=
  dot_S8x259x512_S8x259x512_S8x259x259_2_2_1_1_0_0.rhsIdx_val_of_single rfl y q

/-- The batched product at (n, i, j) is ⟨a_i, b_j⟩ of entry n. -/
theorem matmul_at (n : Fin 8) (i j : Fin 259) :
    (matmul dot_S8x259x512_S8x259x512_S8x259x259_2_2_1_1_0_0 (some .fp32) (k0_pay3 (F := Ideal) P0) (k0_pay4 (F := Ideal) P1) (constant S8x259x259 .f32 0x00000000#32)) (ix3 n i j) = rowDot (blockRows P0 n) (blockRows P1 n) i j := by
  show FloatOps.matmul dot_S8x259x512_S8x259x512_S8x259x259_2_2_1_1_0_0 (some .fp32) (k0_pay3 (F := Ideal) P0) (k0_pay4 (F := Ideal) P1)
    (constant S8x259x259 .f32 0x00000000#32) (ix3 n i j) = _
  rw [Ideal.matmul_constant_zero_apply,
    ← Equiv.sum_comp (contrEquiv1 dot_S8x259x512_S8x259x512_S8x259x259_2_2_1_1_0_0 512 rfl rfl).symm]
  unfold rowDot
  refine Finset.sum_congr rfl fun k _ => ?_
  have hk := contrEquiv1_symm_val dot_S8x259x512_S8x259x512_S8x259x259_2_2_1_1_0_0 512 rfl rfl k
  have el : dot_S8x259x512_S8x259x512_S8x259x259_2_2_1_1_0_0.lhsIdx (ix3 n i j) ((contrEquiv1 dot_S8x259x512_S8x259x512_S8x259x259_2_2_1_1_0_0 512 rfl rfl).symm k) = ix3 n i k :=
    funext fun a => Fin.ext (by
      match a with
      | ⟨0, _⟩ => exact lhs_axis0 _ _
      | ⟨1, _⟩ => exact lhs_axis1 _ _
      | ⟨2, _⟩ => exact (lhs_axis2 _ _).trans hk)
  have er : dot_S8x259x512_S8x259x512_S8x259x259_2_2_1_1_0_0.rhsIdx (ix3 n i j) ((contrEquiv1 dot_S8x259x512_S8x259x512_S8x259x259_2_2_1_1_0_0 512 rfl rfl).symm k) = ix3 n j k :=
    funext fun a => Fin.ext (by
      match a with
      | ⟨0, _⟩ => exact rhs_axis0 _ _
      | ⟨1, _⟩ => exact rhs_axis1 _ _
      | ⟨2, _⟩ => exact (rhs_axis2 _ _).trans hk)
  rw [el, er, pay3_at, pay4_at]

/-- The score array at (n, i, j) is the match score of a_i and b_j of entry n. -/
theorem pay5_at (n : Fin 8) (i j : Fin 259) :
    k0_pay5 (F := Ideal) P0 P1 (ix3 n i j) = score (blockRows P0 n) (blockRows P1 n) i j := by
  show Ideal.div (Ideal.ofBits .f32 0x3F800000#32)
      (Ideal.ofBits .f32 0x3F800000#32
        + Ideal.sqrt (max (((broadcastTo S8x259x259 (shapeCast S8x259x1 (multiReduction .add [2] S8x259 (mulf (k0_pay3 (F := Ideal) P0) (k0_pay3 (F := Ideal) P0)) 0x00000000#32 reduces_S8x259x512_S8x259 (.inl rfl) rfl) shapeCasts_S8x259_S8x259x1) broadcasts_S8x259x1_S8x259x259) (ix3 n i j) + (broadcastTo S8x259x259 (shapeCast S8x1x259 (multiReduction .add [2] S8x259 (mulf (k0_pay4 (F := Ideal) P1) (k0_pay4 (F := Ideal) P1)) 0x00000000#32 reduces_S8x259x512_S8x259 (.inl rfl) rfl) shapeCasts_S8x259_S8x1x259) broadcasts_S8x1x259_S8x259x259) (ix3 n i j))
              - Ideal.ofBits .f32 0x40000000#32 * (matmul dot_S8x259x512_S8x259x512_S8x259x259_2_2_1_1_0_0 (some .fp32) (k0_pay3 (F := Ideal) P0) (k0_pay4 (F := Ideal) P1) (constant S8x259x259 .f32 0x00000000#32)) (ix3 n i j))
            (Ideal.ofBits .f32 0x00000000#32))) = _
  rw [sqA_bcast_at, sqB_bcast_at, matmul_at]
  rfl

/-- One term of the sum over axis 1: the score of (a_i, b_k). -/
theorem colW_term (n : Fin 8) (k i : Fin 259) :
    k0_pay5 (F := Ideal) P0 P1 (reduces_S8x259x259_S8x259.lift (ix2 n k) i) = score (blockRows P0 n) (blockRows P1 n) i k := by
  have e : reduces_S8x259x259_S8x259.lift (ix2 n k) i = ix3 n i k := idx3_ext _ _ rfl rfl rfl
  rw [e, pay5_at]

/-- One term of the sum over axis 2: the score of (a_k, b_j). -/
theorem rowW_term (n : Fin 8) (k j : Fin 259) :
    k0_pay5 (F := Ideal) P0 P1 (reduces_S8x259x259_S8x259_2.lift (ix2 n k) j) = score (blockRows P0 n) (blockRows P1 n) k j := by
  have e : reduces_S8x259x259_S8x259_2.lift (ix2 n k) j = ix3 n k j := idx3_ext _ _ rfl rfl rfl
  rw [e, pay5_at]

/-- The score array summed over axis 1, at (n, k): the column weight of k. -/
theorem colW_at (n : Fin 8) (k : Fin 259) :
    (multiReduction .add [1] S8x259 (k0_pay5 (F := Ideal) P0 P1) 0x00000000#32 reduces_S8x259x259_S8x259 (.inl rfl) rfl) (ix2 n k) = colWeight (blockRows P0 n) (blockRows P1 n) k := by
  refine (Ideal.multiReduction_add_single _ 0x00000000#32 reduces_S8x259x259_S8x259 (.inl rfl) rfl (ix2 n k)).trans ?_
  unfold colWeight
  exact Finset.sum_congr rfl fun i _ => colW_term P0 P1 n k i

/-- The score array summed over axis 2, at (n, k): the row weight of k. -/
theorem rowW_at (n : Fin 8) (k : Fin 259) :
    (multiReduction .add [2] S8x259 (k0_pay5 (F := Ideal) P0 P1) 0x00000000#32 reduces_S8x259x259_S8x259_2 (.inl rfl) rfl) (ix2 n k) = rowWeight (blockRows P0 n) (blockRows P1 n) k := by
  refine (Ideal.multiReduction_add_single _ 0x00000000#32 reduces_S8x259x259_S8x259_2 (.inl rfl) rfl (ix2 n k)).trans ?_
  unfold rowWeight
  exact Finset.sum_congr rfl fun j _ => rowW_term P0 P1 n k j

/-- THE FIRST OUTPUT BLOCK at (n, u, r, d): the window sum of the column-weighted rows of the first block's entry n. -/
theorem blockA_at (n : Fin 8) (u : Fin 1) (r : Fin 256) (d : Fin 512) :
    E2 (F := Ideal) P0 P1 (ix4 n u r d)
      = windowSum (colWeight (blockRows P0 n) (blockRows P1 n)) (blockRows P0 n) r d := by
  have hr := r.isLt
  show (((multiReduction .add [1] S8x259 (k0_pay5 (F := Ideal) P0 P1) 0x00000000#32 reduces_S8x259x259_S8x259 (.inl rfl) rfl) (ix2_0 (ix4 n u r d)) * P0 (ix2_1 (ix4 n u r d))
        + (multiReduction .add [1] S8x259 (k0_pay5 (F := Ideal) P0 P1) 0x00000000#32 reduces_S8x259x259_S8x259 (.inl rfl) rfl) (ix2_2 (ix4 n u r d)) * P0 (ix2_3 (ix4 n u r d)))
      + (multiReduction .add [1] S8x259 (k0_pay5 (F := Ideal) P0 P1) 0x00000000#32 reduces_S8x259x259_S8x259 (.inl rfl) rfl) (ix2_4 (ix4 n u r d)) * P0 (ix2_5 (ix4 n u r d)))
    + (multiReduction .add [1] S8x259 (k0_pay5 (F := Ideal) P0 P1) 0x00000000#32 reduces_S8x259x259_S8x259 (.inl rfl) rfl) (ix2_6 (ix4 n u r d)) * P0 (ix2_7 (ix4 n u r d)) = _
  have w0 : ix2_0 (ix4 n u r d) = ix2 n (⟨r.val, by omega⟩ : Fin 259) := idx2_ext _ _ rfl rfl
  have w1 : ix2_2 (ix4 n u r d) = ix2 n (⟨r.val + 1, by omega⟩ : Fin 259) := idx2_ext _ _ rfl rfl
  have w2 : ix2_4 (ix4 n u r d) = ix2 n (⟨r.val + 2, by omega⟩ : Fin 259) := idx2_ext _ _ rfl rfl
  have w3 : ix2_6 (ix4 n u r d) = ix2 n (⟨r.val + 3, by omega⟩ : Fin 259) := idx2_ext _ _ rfl rfl
  have p0 : ix2_1 (ix4 n u r d) = ix4 n (0 : Fin 1) (⟨r.val, by omega⟩ : Fin 259) d := idx4_ext _ _ rfl rfl rfl rfl
  have p1 : ix2_3 (ix4 n u r d) = ix4 n (0 : Fin 1) (⟨r.val + 1, by omega⟩ : Fin 259) d := idx4_ext _ _ rfl rfl rfl rfl
  have p2 : ix2_5 (ix4 n u r d) = ix4 n (0 : Fin 1) (⟨r.val + 2, by omega⟩ : Fin 259) d := idx4_ext _ _ rfl rfl rfl rfl
  have p3 : ix2_7 (ix4 n u r d) = ix4 n (0 : Fin 1) (⟨r.val + 3, by omega⟩ : Fin 259) d := idx4_ext _ _ rfl rfl rfl rfl
  rw [w0, w1, w2, w3, p0, p1, p2, p3, colW_at, colW_at, colW_at, colW_at]
  rfl

/-- THE SECOND OUTPUT BLOCK at (n, u, r, d): the window sum of the row-weighted rows of the second block's entry n. -/
theorem blockB_at (n : Fin 8) (u : Fin 1) (r : Fin 256) (d : Fin 512) :
    E3 (F := Ideal) P0 P1 (ix4 n u r d)
      = windowSum (rowWeight (blockRows P0 n) (blockRows P1 n)) (blockRows P1 n) r d := by
  have hr := r.isLt
  show (((multiReduction .add [2] S8x259 (k0_pay5 (F := Ideal) P0 P1) 0x00000000#32 reduces_S8x259x259_S8x259_2 (.inl rfl) rfl) (ix3_0 (ix4 n u r d)) * P1 (ix3_1 (ix4 n u r d))
        + (multiReduction .add [2] S8x259 (k0_pay5 (F := Ideal) P0 P1) 0x00000000#32 reduces_S8x259x259_S8x259_2 (.inl rfl) rfl) (ix3_2 (ix4 n u r d)) * P1 (ix3_3 (ix4 n u r d)))
      + (multiReduction .add [2] S8x259 (k0_pay5 (F := Ideal) P0 P1) 0x00000000#32 reduces_S8x259x259_S8x259_2 (.inl rfl) rfl) (ix3_4 (ix4 n u r d)) * P1 (ix3_5 (ix4 n u r d)))
    + (multiReduction .add [2] S8x259 (k0_pay5 (F := Ideal) P0 P1) 0x00000000#32 reduces_S8x259x259_S8x259_2 (.inl rfl) rfl) (ix3_6 (ix4 n u r d)) * P1 (ix3_7 (ix4 n u r d)) = _
  have w0 : ix3_0 (ix4 n u r d) = ix2 n (⟨r.val, by omega⟩ : Fin 259) := idx2_ext _ _ rfl rfl
  have w1 : ix3_2 (ix4 n u r d) = ix2 n (⟨r.val + 1, by omega⟩ : Fin 259) := idx2_ext _ _ rfl rfl
  have w2 : ix3_4 (ix4 n u r d) = ix2 n (⟨r.val + 2, by omega⟩ : Fin 259) := idx2_ext _ _ rfl rfl
  have w3 : ix3_6 (ix4 n u r d) = ix2 n (⟨r.val + 3, by omega⟩ : Fin 259) := idx2_ext _ _ rfl rfl
  have p0 : ix3_1 (ix4 n u r d) = ix4 n (0 : Fin 1) (⟨r.val, by omega⟩ : Fin 259) d := idx4_ext _ _ rfl rfl rfl rfl
  have p1 : ix3_3 (ix4 n u r d) = ix4 n (0 : Fin 1) (⟨r.val + 1, by omega⟩ : Fin 259) d := idx4_ext _ _ rfl rfl rfl rfl
  have p2 : ix3_5 (ix4 n u r d) = ix4 n (0 : Fin 1) (⟨r.val + 2, by omega⟩ : Fin 259) d := idx4_ext _ _ rfl rfl rfl rfl
  have p3 : ix3_7 (ix4 n u r d) = ix4 n (0 : Fin 1) (⟨r.val + 3, by omega⟩ : Fin 259) d := idx4_ext _ _ rfl rfl rfl rfl
  rw [w0, w1, w2, w3, p0, p1, p2, p3, rowW_at, rowW_at, rowW_at, rowW_at]
  rfl

/-! ## A block against the whole arrays

If the two input blocks are batch entries 8·b .. 8·b + 7 of two whole arrays, the two output blocks are those entries
of `pooledA` / `pooledB` of the whole arrays: the formulas never look outside one batch entry. -/

variable (A0 A1 : SIn.Idx → EReal) (b : ℕ) (hb : b < 16)

theorem blockA_eq_pooledA
    (h0 : ∀ (n : Fin 8) (i : Fin 259) (d : Fin 512), P0 (ix4 n (0 : Fin 1) i d) = A0 (ix4 (entry b hb n) (0 : Fin 1) i d))
    (h1 : ∀ (n : Fin 8) (i : Fin 259) (d : Fin 512), P1 (ix4 n (0 : Fin 1) i d) = A1 (ix4 (entry b hb n) (0 : Fin 1) i d))
    (n : Fin 8) (u : Fin 1) (r : Fin 256) (d : Fin 512) :
    E2 (F := Ideal) P0 P1 (ix4 n u r d) = pooledA A0 A1 (ix4 (entry b hb n) (0 : Fin 1) r d) := by
  rw [blockA_at]
  have e0 : blockRows P0 n = rowsOf A0 (entry b hb n) := funext fun i => funext fun d => h0 n i d
  have e1 : blockRows P1 n = rowsOf A1 (entry b hb n) := funext fun i => funext fun d => h1 n i d
  rw [e0, e1]
  rfl

theorem blockB_eq_pooledB
    (h0 : ∀ (n : Fin 8) (i : Fin 259) (d : Fin 512), P0 (ix4 n (0 : Fin 1) i d) = A0 (ix4 (entry b hb n) (0 : Fin 1) i d))
    (h1 : ∀ (n : Fin 8) (i : Fin 259) (d : Fin 512), P1 (ix4 n (0 : Fin 1) i d) = A1 (ix4 (entry b hb n) (0 : Fin 1) i d))
    (n : Fin 8) (u : Fin 1) (r : Fin 256) (d : Fin 512) :
    E3 (F := Ideal) P0 P1 (ix4 n u r d) = pooledB A0 A1 (ix4 (entry b hb n) (0 : Fin 1) r d) := by
  rw [blockB_at]
  have e0 : blockRows P0 n = rowsOf A0 (entry b hb n) := funext fun i => funext fun d => h0 n i d
  have e1 : blockRows P1 n = rowsOf A1 (entry b hb n) := funext fun i => funext fun d => h1 n i d
  rw [e0, e1]
  rfl

end Cert.KernelIdeal.Body

end
-- ==== Proof.Whole.lean ====
/-
  From blocks to arrays: after the kernel's run its two result arrays are `pooledA` and `pooledB` of the two argument
  arrays.

  The grid has 16 points; at point t every window's block is the t-th slab of 8 batch entries and spans the other three
  axes whole (decided once over the grid). So an input block at (n, 0, i, d) is its array at (8t + n, 0, i, d), and since
  the per-batch formulas never look outside one batch entry, what point t writes back is exactly the t-th slab of the
  whole-array function. An index (N, 0, r, d) lies in the slab of point N / 8, so the slabs cover the result arrays.
-/
import proofs.«115649_j77996606095982_2_alg».proof.Proof.BodyPooled
import Idealize.ShloMosaic.Lib.Pipeline.Value

noncomputable section

namespace Cert.KernelIdeal.Whole

open Cert.KernelIdeal Cert.KernelIdeal.Gen Cert.KernelIdeal.Value Cert.KernelIdeal.Body Cert.Abcnn
open Idealize.ShloMosaic Idealize.ShloMosaic.TcCoe Idealize.SL.Sem
open Idealize.ShloMosaic.ValueIdx Idealize.ShloMosaic.UnitAxis3
open Idealize.ShloMosaic.Pipeline (Dat)

variable (m : (ℓ : Loc nD τ sig) → Buf (Elt Ideal) ℓ) (ρ : Dev nD → PrngReg)

/-- The body's loads and stores start at the origin of their buffers. -/
theorem origin : (![0, 0, 0, 0] : Fin 4 → Nat) = fun _ => 0 := funext fun a => by fin_cases a <;> rfl

/-- At grid point t every window's block index is (t, 0, 0, 0), and there are 16 points. -/
theorem slab_index : ∀ t : Fin cfg0.N,
    (win0_0.index t (0 : Fin 4) = t.val ∧ win0_0.index t (1 : Fin 4) = 0 ∧ win0_0.index t (2 : Fin 4) = 0 ∧ win0_0.index t (3 : Fin 4) = 0)
    ∧ (win0_1.index t (0 : Fin 4) = t.val ∧ win0_1.index t (1 : Fin 4) = 0 ∧ win0_1.index t (2 : Fin 4) = 0 ∧ win0_1.index t (3 : Fin 4) = 0)
    ∧ (win0_2.index t (0 : Fin 4) = t.val ∧ win0_2.index t (1 : Fin 4) = 0 ∧ win0_2.index t (2 : Fin 4) = 0 ∧ win0_2.index t (3 : Fin 4) = 0)
    ∧ (win0_3.index t (0 : Fin 4) = t.val ∧ win0_3.index t (1 : Fin 4) = 0 ∧ win0_3.index t (2 : Fin 4) = 0 ∧ win0_3.index t (3 : Fin 4) = 0)
    ∧ t.val < 16 :=
  (by decide +kernel : ∀ t : Fin grid0.N, _)

/-! ## What the body leaves, against whole arrays -/

/-- If the input blocks are slab b of two arrays, the first output block is slab b of `pooledA` of those arrays. -/
theorem outA_at (X0 X1 : Vec Ideal S8x1x259x512 .f32) (A0 A1 : SIn.Idx → EReal) (b : ℕ) (hb : b < 16)
    (h0 : ∀ (n : Fin 8) (i : Fin 259) (d : Fin 512), X0 (ix4 n (0 : Fin 1) i d) = A0 (ix4 (entry b hb n) (0 : Fin 1) i d))
    (h1 : ∀ (n : Fin 8) (i : Fin 259) (d : Fin 512), X1 (ix4 n (0 : Fin 1) i d) = A1 (ix4 (entry b hb n) (0 : Fin 1) i d))
    (y : S8x1x256x512.Idx) :
    out0_2 (F := Ideal) X0 X1 y = pooledA A0 A1 (ix4 (entry b hb (y 0)) (0 : Fin 1) (y 2) (y 3)) := by
  obtain ⟨n, u, r, d, rfl⟩ : ∃ (n : Fin 8) (u : Fin 1) (r : Fin 256) (d : Fin 512), y = ix4 n u r d :=
    ⟨y 0, y 1, y 2, y 3, eq_ix4 y⟩
  unfold out0_2
  rw [canon2_eq]
  simp only [View.ld_unit_zero (S := S8x1x259x512) origin]
  exact blockA_eq_pooledA X0 X1 A0 A1 b hb h0 h1 n u r d

/-- Likewise the second output block is slab b of `pooledB`. -/
theorem outB_at (X0 X1 : Vec Ideal S8x1x259x512 .f32) (A0 A1 : SIn.Idx → EReal) (b : ℕ) (hb : b < 16)
    (h0 : ∀ (n : Fin 8) (i : Fin 259) (d : Fin 512), X0 (ix4 n (0 : Fin 1) i d) = A0 (ix4 (entry b hb n) (0 : Fin 1) i d))
    (h1 : ∀ (n : Fin 8) (i : Fin 259) (d : Fin 512), X1 (ix4 n (0 : Fin 1) i d) = A1 (ix4 (entry b hb n) (0 : Fin 1) i d))
    (y : S8x1x256x512.Idx) :
    out0_3 (F := Ideal) X0 X1 y = pooledB A0 A1 (ix4 (entry b hb (y 0)) (0 : Fin 1) (y 2) (y 3)) := by
  obtain ⟨n, u, r, d, rfl⟩ : ∃ (n : Fin 8) (u : Fin 1) (r : Fin 256) (d : Fin 512), y = ix4 n u r d :=
    ⟨y 0, y 1, y 2, y 3, eq_ix4 y⟩
  unfold out0_3
  rw [canon3_eq]
  simp only [View.ld_unit_zero (S := S8x1x259x512) origin]
  exact blockB_eq_pooledB X0 X1 A0 A1 b hb h0 h1 n u r d

/-! ## The input blocks are slabs of the argument arrays -/

/-- Point t's block of the first argument at (n, 0, i, d) is the argument at (8t + n, 0, i, d). -/
theorem in0_at (c : Dev nD) (t : Fin cfg0.N) (ht : t.val < 16) (n : Fin 8) (i : Fin 259) (d : Fin 512) :
    iblk m c 0 t (ix4 n (0 : Fin 1) i d) = V m c main_arg0 (ix4 (entry t.val ht n) (0 : Fin 1) i d) := by
  obtain ⟨⟨e0, e1, e2, e3⟩, -⟩ := slab_index t
  show V m c main_arg0 (((cfg0.win 0).blk t).view.emb (ix4 n (0 : Fin 1) i d)) = _
  have h : ((cfg0.win 0).blk t).view.emb (ix4 n (0 : Fin 1) i d) = ix4 (entry t.val ht n) (0 : Fin 1) i d := by
    funext a; apply Fin.ext
    match a with
    | ⟨0, _⟩ => show win0_0.index t (0 : Fin 4) * 8 + 1 * n.val = t.val * 8 + n.val; omega
    | ⟨1, _⟩ => show win0_0.index t (1 : Fin 4) * 1 + 1 * 0 = 0; omega
    | ⟨2, _⟩ => show win0_0.index t (2 : Fin 4) * 259 + 1 * i.val = i.val; omega
    | ⟨3, _⟩ => show win0_0.index t (3 : Fin 4) * 512 + 1 * d.val = d.val; omega
  rw [h]

/-- Point t's block of the second argument at (n, 0, i, d) is the argument at (8t + n, 0, i, d). -/
theorem in1_at (c : Dev nD) (t : Fin cfg0.N) (ht : t.val < 16) (n : Fin 8) (i : Fin 259) (d : Fin 512) :
    iblk m c 1 t (ix4 n (0 : Fin 1) i d) = V m c main_arg1 (ix4 (entry t.val ht n) (0 : Fin 1) i d) := by
  obtain ⟨-, ⟨e0, e1, e2, e3⟩, -⟩ := slab_index t
  show V m c main_arg1 (((cfg0.win 1).blk t).view.emb (ix4 n (0 : Fin 1) i d)) = _
  have h : ((cfg0.win 1).blk t).view.emb (ix4 n (0 : Fin 1) i d) = ix4 (entry t.val ht n) (0 : Fin 1) i d := by
    funext a; apply Fin.ext
    match a with
    | ⟨0, _⟩ => show win0_1.index t (0 : Fin 4) * 8 + 1 * n.val = t.val * 8 + n.val; omega
    | ⟨1, _⟩ => show win0_1.index t (1 : Fin 4) * 1 + 1 * 0 = 0; omega
    | ⟨2, _⟩ => show win0_1.index t (2 : Fin 4) * 259 + 1 * i.val = i.val; omega
    | ⟨3, _⟩ => show win0_1.index t (3 : Fin 4) * 512 + 1 * d.val = d.val; omega
  rw [h]

/-! ## What each point writes back -/

/-- Point t writes back slab t of `pooledA` of the argument arrays. -/
theorem flushedA_eq (c : Dev nD) (t : Fin cfg0.N) :
    (dats m 0 c).flushed 2 t
      = ((cfg0.win 2).blk t).view.read (Elt Ideal) (pooledA (V m c main_arg0) (V m c main_arg1)) := by
  rw [flushed2]
  obtain ⟨-, -, ⟨e0, e1, e2, e3⟩, -, ht⟩ := slab_index t
  funext j
  show out0_2 (F := Ideal) (iblk m c 0 t) (iblk m c 1 t) j
    = pooledA (V m c main_arg0) (V m c main_arg1) (((cfg0.win 2).blk t).view.emb j)
  refine (outA_at (iblk m c 0 t) (iblk m c 1 t) (V m c main_arg0) (V m c main_arg1) t.val ht
    (in0_at m c t ht) (in1_at m c t ht) j).trans ?_
  have hj1 : (j 1).val < 1 := (j 1).isLt
  refine congrArg (pooledA (V m c main_arg0) (V m c main_arg1)) ?_
  funext a; apply Fin.ext
  match a with
  | ⟨0, _⟩ => show t.val * 8 + (j 0).val = win0_2.index t (0 : Fin 4) * 8 + 1 * (j 0).val; omega
  | ⟨1, _⟩ => show 0 = win0_2.index t (1 : Fin 4) * 1 + 1 * (j 1).val; omega
  | ⟨2, _⟩ => show (j 2).val = win0_2.index t (2 : Fin 4) * 256 + 1 * (j 2).val; omega
  | ⟨3, _⟩ => show (j 3).val = win0_2.index t (3 : Fin 4) * 512 + 1 * (j 3).val; omega

/-- Point t writes back slab t of `pooledB` of the argument arrays. -/
theorem flushedB_eq (c : Dev nD) (t : Fin cfg0.N) :
    (dats m 0 c).flushed 3 t
      = ((cfg0.win 3).blk t).view.read (Elt Ideal) (pooledB (V m c main_arg0) (V m c main_arg1)) := by
  rw [flushed3]
  obtain ⟨-, -, -, ⟨e0, e1, e2, e3⟩, ht⟩ := slab_index t
  funext j
  show out0_3 (F := Ideal) (iblk m c 0 t) (iblk m c 1 t) j
    = pooledB (V m c main_arg0) (V m c main_arg1) (((cfg0.win 3).blk t).view.emb j)
  refine (outB_at (iblk m c 0 t) (iblk m c 1 t) (V m c main_arg0) (V m c main_arg1) t.val ht
    (in0_at m c t ht) (in1_at m c t ht) j).trans ?_
  have hj1 : (j 1).val < 1 := (j 1).isLt
  refine congrArg (pooledB (V m c main_arg0) (V m c main_arg1)) ?_
  funext a; apply Fin.ext
  match a with
  | ⟨0, _⟩ => show t.val * 8 + (j 0).val = win0_3.index t (0 : Fin 4) * 8 + 1 * (j 0).val; omega
  | ⟨1, _⟩ => show 0 = win0_3.index t (1 : Fin 4) * 1 + 1 * (j 1).val; omega
  | ⟨2, _⟩ => show (j 2).val = win0_3.index t (2 : Fin 4) * 256 + 1 * (j 2).val; omega
  | ⟨3, _⟩ => show (j 3).val = win0_3.index t (3 : Fin 4) * 512 + 1 * (j 3).val; omega

/-! ## The slabs cover the result arrays -/

/-- An index is in point t's block of the first result iff each coordinate is in the block's range on its axis. -/
theorem mem_slabA (t : Fin cfg0.N) (i : S128x1x256x512.Idx) :
    i ∈ ((cfg0.win 2).blk t).view.set ↔ ∀ a : Fin 4, win0_2.index t a * S8x1x256x512.size a ≤ (i a).val
      ∧ (i a).val < win0_2.index t a * S8x1x256x512.size a + S8x1x256x512.size a := by
  show i ∈ ((View.whole main_v0_0).slice (win0_2.rect t)).set ↔ _
  rw [View.set_slice_whole, Rect.mem_set_unit]
  exact Iff.rfl

/-- An index is in point t's block of the second result iff each coordinate is in the block's range on its axis. -/
theorem mem_slabB (t : Fin cfg0.N) (i : S128x1x256x512.Idx) :
    i ∈ ((cfg0.win 3).blk t).view.set ↔ ∀ a : Fin 4, win0_3.index t a * S8x1x256x512.size a ≤ (i a).val
      ∧ (i a).val < win0_3.index t a * S8x1x256x512.size a + S8x1x256x512.size a := by
  show i ∈ ((View.whole main_v0_1).slice (win0_3.rect t)).set ↔ _
  rw [View.set_slice_whole, Rect.mem_set_unit]
  exact Iff.rfl

/-- Index (N, 0, r, d) of the first result lies in the slab of point N / 8. -/
theorem coverA (i : S128x1x256x512.Idx) :
    ∃ t : Fin cfg0.N, (cfg0.win 2).flush t = true ∧ i ∈ ((cfg0.win 2).blk t).view.set := by
  have hN : cfg0.N = 16 := N_0
  have h0 : (i 0).val < 128 := (i 0).isLt
  have h1 : (i 1).val < 1 := (i 1).isLt
  have h2 : (i 2).val < 256 := (i 2).isLt
  have h3 : (i 3).val < 512 := (i 3).isLt
  obtain ⟨t, ht⟩ : ∃ t : Fin cfg0.N, t.val = (i 0).val / 8 := ⟨⟨(i 0).val / 8, by omega⟩, rfl⟩
  obtain ⟨-, -, ⟨e0, e1, e2, e3⟩, -, -⟩ := slab_index t
  refine ⟨t, flush0_2 t, ?_⟩
  rw [mem_slabA]
  intro a
  match a with
  | ⟨0, _⟩ => show win0_2.index t (0 : Fin 4) * 8 ≤ (i 0).val ∧ (i 0).val < win0_2.index t (0 : Fin 4) * 8 + 8; omega
  | ⟨1, _⟩ => show win0_2.index t (1 : Fin 4) * 1 ≤ (i 1).val ∧ (i 1).val < win0_2.index t (1 : Fin 4) * 1 + 1; omega
  | ⟨2, _⟩ => show win0_2.index t (2 : Fin 4) * 256 ≤ (i 2).val ∧ (i 2).val < win0_2.index t (2 : Fin 4) * 256 + 256; omega
  | ⟨3, _⟩ => show win0_2.index t (3 : Fin 4) * 512 ≤ (i 3).val ∧ (i 3).val < win0_2.index t (3 : Fin 4) * 512 + 512; omega

/-- Index (N, 0, r, d) of the second result lies in the slab of point N / 8. -/
theorem coverB (i : S128x1x256x512.Idx) :
    ∃ t : Fin cfg0.N, (cfg0.win 3).flush t = true ∧ i ∈ ((cfg0.win 3).blk t).view.set := by
  have hN : cfg0.N = 16 := N_0
  have h0 : (i 0).val < 128 := (i 0).isLt
  have h1 : (i 1).val < 1 := (i 1).isLt
  have h2 : (i 2).val < 256 := (i 2).isLt
  have h3 : (i 3).val < 512 := (i 3).isLt
  obtain ⟨t, ht⟩ : ∃ t : Fin cfg0.N, t.val = (i 0).val / 8 := ⟨⟨(i 0).val / 8, by omega⟩, rfl⟩
  obtain ⟨-, -, -, ⟨e0, e1, e2, e3⟩, -⟩ := slab_index t
  refine ⟨t, flush0_3 t, ?_⟩
  rw [mem_slabB]
  intro a
  match a with
  | ⟨0, _⟩ => show win0_3.index t (0 : Fin 4) * 8 ≤ (i 0).val ∧ (i 0).val < win0_3.index t (0 : Fin 4) * 8 + 8; omega
  | ⟨1, _⟩ => show win0_3.index t (1 : Fin 4) * 1 ≤ (i 1).val ∧ (i 1).val < win0_3.index t (1 : Fin 4) * 1 + 1; omega
  | ⟨2, _⟩ => show win0_3.index t (2 : Fin 4) * 256 ≤ (i 2).val ∧ (i 2).val < win0_3.index t (2 : Fin 4) * 256 + 256; omega
  | ⟨3, _⟩ => show win0_3.index t (3 : Fin 4) * 512 ≤ (i 3).val ∧ (i 3).val < win0_3.index t (3 : Fin 4) * 512 + 512; omega

/-! ## The arrays after the run -/

/-- The first result array after the run is `pooledA` of the arguments as launched. -/
theorem finalA (c : Dev nD) :
    (dats m 0 c).arrAt 2 cfg0.N
      = pooledA (m ((c : Thread nD τ).loc main_arg0)) (m ((c : Thread nD τ).loc main_arg1)) :=
  (dats m 0 c).arrAt_eq_of_cover 2 (pooledA (V m c main_arg0) (V m c main_arg1))
    (fun t _ => flushedA_eq m c t) coverA

/-- The second result array after the run is `pooledB` of the arguments as launched. -/
theorem finalB (c : Dev nD) :
    (dats m 0 c).arrAt 3 cfg0.N
      = pooledB (m ((c : Thread nD τ).loc main_arg0)) (m ((c : Thread nD τ).loc main_arg1)) :=
  (dats m 0 c).arrAt_eq_of_cover 3 (pooledB (V m c main_arg0) (V m c main_arg1))
    (fun t _ => flushedB_eq m c t) coverB

/-- THE KERNEL'S RUN: every weakly fair execution terminates with the two results at `pooledA` and `pooledB` of the
    arguments, and the arguments unchanged. -/
theorem run : θ_run defs (onTc (τ := τ) (main (F := Ideal))) ⟨m, fun _ => 0, ρ⟩ fun r => ∀ c : Dev nD,
      r.2.mem ((c : Thread nD τ).loc main_v0_0)
        = pooledA (m ((c : Thread nD τ).loc main_arg0)) (m ((c : Thread nD τ).loc main_arg1))
      ∧ r.2.mem ((c : Thread nD τ).loc main_v0_1)
        = pooledB (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (finalA m c), (h c).2.1.trans (finalB m c), (h c).2.2.1, (h c).2.2.2⟩)
    (run_blocks m ρ)

end Cert.KernelIdeal.Whole

end
-- ==== Proof.RefPooled.lean ====
/-
  The reference's two results are the per-batch formulas of Attention.lean.

  The host program is read one operation at a time, each stage at an index given by its coordinates: the reshaped inputs
  at (n, i, d) are the input arrays at (n, 0, i, d); the two sums of squares at (n, i) are |a_i|² and |b_i|² of batch
  entry n (the initial value of a host sum is the zero word, which is 0); the batched product at (n, i, j) is ⟨a_i, b_j⟩;
  the score stage at (n, i, j) is the match score; the two score sums at (n, k) are the column and the row weight; the
  weighted inputs at (n, k, d) are weight times entry; and the four-slice sum at (n, r, d), which the host starts from a
  zero array, is the window sum, because 0 + x = x. The trailing broadcast only re-inserts the unit axis.
-/
import proofs.«115649_j77996606095982_2_alg».proof.Proof.Gen.ReferenceIdeal.Read
import proofs.«115649_j77996606095982_2_alg».proof.Proof.Attention
import proofs.«115649_j77996606095982_2_alg».proof.Proof.LibUnitAxis3

noncomputable section

open scoped BigOperators

namespace Cert.ReferenceIdeal.Pooled

open Cert.ReferenceIdeal Cert.ReferenceIdeal.Read Cert.Abcnn
open Idealize.ShloMosaic Idealize.ShloMosaic.ValueIdx Idealize.ShloMosaic.UnitAxis3

variable (x0 x1 : (⟨S128x1x259x512, .f32⟩ : BufTy).Contents (Elt Ideal))

/-- The first input without its unit axis, at (n, i, d): entry (n, 0, i, d). -/
theorem v0_at (n : Fin 128) (i : Fin 259) (d : Fin 512) :
    val_main_v0 (F := Ideal) x0 (ix3 n i d) = rowsOf x0 n i d := by
  rw [val_main_v0_apply]
  show x0 (idx_main_v0 (ix3 n i d)) = x0 (ix4 n (0 : Fin 1) i d)
  have hn := n.isLt; have hi := i.isLt; have hd := d.isLt
  exact congrArg x0 (idx4_ext _ _
    (by show ((n.val * 259 + i.val) * 512 + d.val) / 132608 = n.val; omega) rfl
    (by show ((n.val * 259 + i.val) * 512 + d.val) / 512 % 259 = i.val; omega)
    (by show ((n.val * 259 + i.val) * 512 + d.val) % 512 = d.val; omega))

/-- The second input without its unit axis, at (n, i, d): entry (n, 0, i, d). -/
theorem v1_at (n : Fin 128) (i : Fin 259) (d : Fin 512) :
    val_main_v1 (F := Ideal) x1 (ix3 n i d) = rowsOf x1 n i d := by
  rw [val_main_v1_apply]
  show x1 (idx_main_v1 (ix3 n i d)) = x1 (ix4 n (0 : Fin 1) i d)
  have hn := n.isLt; have hi := i.isLt; have hd := d.isLt
  exact congrArg x1 (idx4_ext _ _
    (by show ((n.val * 259 + i.val) * 512 + d.val) / 132608 = n.val; omega) rfl
    (by show ((n.val * 259 + i.val) * 512 + d.val) / 512 % 259 = i.val; omega)
    (by show ((n.val * 259 + i.val) * 512 + d.val) % 512 = d.val; omega))

/-- The first sum of squares at (n, i) is |a_i|² of batch entry n. -/
theorem v3_at (n : Fin 128) (i : Fin 259) :
    val_main_v3 (F := Ideal) x0 (ix2 n i) = sqNorm (rowsOf x0 n) i := by
  rw [val_main_v3_apply]
  show Ideal.ofBits .f32 0x00000000#32 + ∑ k : Fin 512, val_main_v2 (F := Ideal) x0 (idx_main_v3 (ix2 n i) k)
    = ∑ d : Fin 512, rowsOf x0 n i d * rowsOf x0 n i d
  rw [Ideal.ofBits_zero_f32, zero_add]
  refine Finset.sum_congr rfl fun k _ => ?_
  have e : idx_main_v3 (ix2 n i) k = ix3 n i k := idx3_ext _ _ rfl rfl rfl
  rw [e]
  show val_main_v0 (F := Ideal) x0 (ix3 n i k) * val_main_v0 (F := Ideal) x0 (ix3 n i k) = _
  rw [v0_at]

/-- The second sum of squares at (n, i) is |b_i|² of batch entry n. -/
theorem v6_at (n : Fin 128) (i : Fin 259) :
    val_main_v6 (F := Ideal) x1 (ix2 n i) = sqNorm (rowsOf x1 n) i := by
  rw [val_main_v6_apply]
  show Ideal.ofBits .f32 0x00000000#32 + ∑ k : Fin 512, val_main_v5 (F := Ideal) x1 (idx_main_v6 (ix2 n i) k)
    = ∑ d : Fin 512, rowsOf x1 n i d * rowsOf x1 n i d
  rw [Ideal.ofBits_zero_f32, zero_add]
  refine Finset.sum_congr rfl fun k _ => ?_
  have e : idx_main_v6 (ix2 n i) k = ix3 n i k := idx3_ext _ _ rfl rfl rfl
  rw [e]
  show val_main_v1 (F := Ideal) x1 (ix3 n i k) * val_main_v1 (F := Ideal) x1 (ix3 n i k) = _
  rw [v1_at]

/-- The batched product at (n, i, j) is ⟨a_i, b_j⟩ of batch entry n. -/
theorem v11_at (n : Fin 128) (i j : Fin 259) :
    val_main_v11 (F := Ideal) x0 x1 (ix3 n i j) = rowDot (rowsOf x0 n) (rowsOf x1 n) i j := by
  rw [val_main_v11_apply]
  unfold rowDot
  refine Finset.sum_congr rfl fun k _ => ?_
  have el : lidx_main_v11 (ix3 n i j) k = ix3 n i k := idx3_ext _ _ rfl rfl rfl
  have er : ridx_main_v11 (ix3 n i j) k = ix3 n j k := idx3_ext _ _ rfl rfl rfl
  rw [el, er, v0_at, v1_at]

/-- The score stage at (n, i, j) is the match score of a_i and b_j of batch entry n. -/
theorem v21_at (n : Fin 128) (i j : Fin 259) :
    val_main_v21 (F := Ideal) x0 x1 (ix3 n i j) = score (rowsOf x0 n) (rowsOf x1 n) i j := by
  rw [val_main_v21_apply, val_main_v19_apply, val_main_v17_apply, val_main_v16_apply, val_main_v14_apply,
    val_main_v10_apply, val_main_v13_apply, val_main_v8_apply, val_main_v9_apply, val_main_v4_apply, val_main_v7_apply]
  have ea : idx_main_v4 (idx_main_v8 (ix3 n i j)) = ix2 n i := idx2_ext _ _ rfl rfl
  have eb : idx_main_v7 (idx_main_v9 (ix3 n i j)) = ix2 n j := idx2_ext _ _ rfl rfl
  rw [ea, eb, v3_at, v6_at, v11_at]
  rfl

/-- The first score sum at (n, k) is the column weight of k. -/
theorem v22_at (n : Fin 128) (k : Fin 259) :
    val_main_v22 (F := Ideal) x0 x1 (ix2 n k) = colWeight (rowsOf x0 n) (rowsOf x1 n) k := by
  rw [val_main_v22_apply]
  show Ideal.ofBits .f32 0x00000000#32 + ∑ i : Fin 259, val_main_v21 (F := Ideal) x0 x1 (idx_main_v22 (ix2 n k) i)
    = ∑ i : Fin 259, score (rowsOf x0 n) (rowsOf x1 n) i k
  rw [Ideal.ofBits_zero_f32, zero_add]
  refine Finset.sum_congr rfl fun i _ => ?_
  have e : idx_main_v22 (ix2 n k) i = ix3 n i k := idx3_ext _ _ rfl rfl rfl
  rw [e, v21_at]

/-- The second score sum at (n, k) is the row weight of k. -/
theorem v23_at (n : Fin 128) (k : Fin 259) :
    val_main_v23 (F := Ideal) x0 x1 (ix2 n k) = rowWeight (rowsOf x0 n) (rowsOf x1 n) k := by
  rw [val_main_v23_apply]
  show Ideal.ofBits .f32 0x00000000#32 + ∑ j : Fin 259, val_main_v21 (F := Ideal) x0 x1 (idx_main_v23 (ix2 n k) j)
    = ∑ j : Fin 259, score (rowsOf x0 n) (rowsOf x1 n) k j
  rw [Ideal.ofBits_zero_f32, zero_add]
  refine Finset.sum_congr rfl fun j _ => ?_
  have e : idx_main_v23 (ix2 n k) j = ix3 n k j := idx3_ext _ _ rfl rfl rfl
  rw [e, v21_at]

/-- The first weighted input at (n, k, d): column weight of k times a_k at d. -/
theorem v26_at (n : Fin 128) (k : Fin 259) (d : Fin 512) :
    val_main_v26 (F := Ideal) x0 x1 (ix3 n k d) = colWeight (rowsOf x0 n) (rowsOf x1 n) k * rowsOf x0 n k d := by
  rw [val_main_v26_apply, val_main_v25_apply, val_main_v24_apply]
  have e : idx_main_v24 (idx_main_v25 (ix3 n k d)) = ix2 n k := idx2_ext _ _ rfl rfl
  rw [e, v22_at, v0_at]
  rfl

/-- The second weighted input at (n, k, d): row weight of k times b_k at d. -/
theorem v29_at (n : Fin 128) (k : Fin 259) (d : Fin 512) :
    val_main_v29 (F := Ideal) x0 x1 (ix3 n k d) = rowWeight (rowsOf x0 n) (rowsOf x1 n) k * rowsOf x1 n k d := by
  rw [val_main_v29_apply, val_main_v28_apply, val_main_v27_apply]
  have e : idx_main_v27 (idx_main_v28 (ix3 n k d)) = ix2 n k := idx2_ext _ _ rfl rfl
  rw [e, v23_at, v1_at]
  rfl

/-- The first four-slice sum at (n, r, d) is the window sum of the column-weighted rows of a. -/
theorem v38_at (n : Fin 128) (r : Fin 256) (d : Fin 512) :
    val_main_v38 (F := Ideal) x0 x1 (ix3 n r d)
      = windowSum (colWeight (rowsOf x0 n) (rowsOf x1 n)) (rowsOf x0 n) r d := by
  have hr := r.isLt
  rw [val_main_v38_apply, val_main_v36_apply, val_main_v34_apply, val_main_v32_apply, val_main_v30_apply,
    val_main_v33_apply, val_main_v35_apply, val_main_v37_apply]
  have e0 : idx_main_v30 (ix3 n r d) = ix3 n (⟨r.val, by omega⟩ : Fin 259) d := idx3_ext _ _ rfl rfl rfl
  have e1 : idx_main_v33 (ix3 n r d) = ix3 n (⟨r.val + 1, by omega⟩ : Fin 259) d :=
    idx3_ext _ _ rfl (Nat.add_comm 1 r.val) rfl
  have e2 : idx_main_v35 (ix3 n r d) = ix3 n (⟨r.val + 2, by omega⟩ : Fin 259) d :=
    idx3_ext _ _ rfl (Nat.add_comm 2 r.val) rfl
  have e3 : idx_main_v37 (ix3 n r d) = ix3 n (⟨r.val + 3, by omega⟩ : Fin 259) d :=
    idx3_ext _ _ rfl (Nat.add_comm 3 r.val) rfl
  rw [e0, e1, e2, e3, v26_at, v26_at, v26_at, v26_at]
  show (((Ideal.ofBits .f32 0x00000000#32 + _) + _) + _) + _ = _
  rw [Ideal.ofBits_zero_f32, zero_add]
  rfl

/-- The second four-slice sum at (n, r, d) is the window sum of the row-weighted rows of b. -/
theorem v47_at (n : Fin 128) (r : Fin 256) (d : Fin 512) :
    val_main_v47 (F := Ideal) x0 x1 (ix3 n r d)
      = windowSum (rowWeight (rowsOf x0 n) (rowsOf x1 n)) (rowsOf x1 n) r d := by
  have hr := r.isLt
  rw [val_main_v47_apply, val_main_v45_apply, val_main_v43_apply, val_main_v41_apply, val_main_v39_apply,
    val_main_v42_apply, val_main_v44_apply, val_main_v46_apply]
  have e0 : idx_main_v39 (ix3 n r d) = ix3 n (⟨r.val, by omega⟩ : Fin 259) d := idx3_ext _ _ rfl rfl rfl
  have e1 : idx_main_v42 (ix3 n r d) = ix3 n (⟨r.val + 1, by omega⟩ : Fin 259) d :=
    idx3_ext _ _ rfl (Nat.add_comm 1 r.val) rfl
  have e2 : idx_main_v44 (ix3 n r d) = ix3 n (⟨r.val + 2, by omega⟩ : Fin 259) d :=
    idx3_ext _ _ rfl (Nat.add_comm 2 r.val) rfl
  have e3 : idx_main_v46 (ix3 n r d) = ix3 n (⟨r.val + 3, by omega⟩ : Fin 259) d :=
    idx3_ext _ _ rfl (Nat.add_comm 3 r.val) rfl
  rw [e0, e1, e2, e3, v29_at, v29_at, v29_at, v29_at]
  show (((Ideal.ofBits .f32 0x00000000#32 + _) + _) + _) + _ = _
  rw [Ideal.ofBits_zero_f32, zero_add]
  rfl

/-- THE FIRST RESULT of the reference is `pooledA` of the two inputs. -/
theorem first_eq : val_main_v48 (F := Ideal) x0 x1 = pooledA x0 x1 := by
  funext y
  obtain ⟨n, u, r, d, rfl⟩ : ∃ (n : Fin 128) (u : Fin 1) (r : Fin 256) (d : Fin 512), y = ix4 n u r d :=
    ⟨y 0, y 1, y 2, y 3, eq_ix4 y⟩
  rw [val_main_v48_apply]
  have e : idx_main_v48 (ix4 n u r d) = ix3 n r d := idx3_ext _ _ rfl rfl rfl
  rw [e, v38_at]
  rfl

/-- THE SECOND RESULT of the reference is `pooledB` of the two inputs. -/
theorem second_eq : val_main_v49 (F := Ideal) x0 x1 = pooledB x0 x1 := by
  funext y
  obtain ⟨n, u, r, d, rfl⟩ : ∃ (n : Fin 128) (u : Fin 1) (r : Fin 256) (d : Fin 512), y = ix4 n u r d :=
    ⟨y 0, y 1, y 2, y 3, eq_ix4 y⟩
  rw [val_main_v49_apply]
  have e : idx_main_v49 (ix4 n u r d) = ix3 n r d := idx3_ext _ _ rfl rfl rfl
  rw [e, v47_at]
  rfl

end Cert.ReferenceIdeal.Pooled

end
-- ==== Proof.lean ====
/-
  The kernel and its reference compute one function.

  For every batch entry the two inputs are 259 rows of 512 entries, a and b. The match score of a_i and b_j is
  1 / (1 + √(max (|a_i|² + |b_j|² − 2·⟨a_i, b_j⟩) 0)); row k of a is weighted by the scores of column k summed over i, row k
  of b by the scores of row k summed over j; output row r (of 256) is the sum of the weighted rows r .. r + 3
  (Attention.lean). The kernel works through the batch in 16 slabs of 8 entries: one batched matrix product into a zero
  accumulator, lane sums, unit-axis casts and broadcasts, four shifted slices added left to right (BodyPooled.lean), and
  its slabs tile the result arrays (Whole.lean). The reference does the same on the whole arrays with host operations,
  and starts each four-slice sum from a zero array (RefPooled.lean). On the extended reals a matrix product into zero and
  a lane or host sum from zero are plain finite sums, a change of layout moves no value, and 0 + x = x for every x, the
  infinities included; no other law is used, so the precondition (finite inputs) is never opened. Both programs print
  the same three literals (1.0, 2.0, 0.0), which are compared as words and never evaluated, except that the zero word is 0.

  The word-level kernel and the idealized kernel terminate without a fault and leave their arguments unchanged by their
  generated frames; the reference's frame is its generated run with the results dropped. The ideal pass rewrote nothing,
  so the idealized kernel is the kernel's own text read on the extended reals and that claim is `True`.
-/
import proofs.«115649_j77996606095982_2_alg».proof.Defs
import proofs.«115649_j77996606095982_2_alg».proof.Proof.Gen.Kernel
import proofs.«115649_j77996606095982_2_alg».proof.Proof.Gen.Kernel.Skeleton
import proofs.«115649_j77996606095982_2_alg».proof.Proof.Gen.Kernel.Launch
import proofs.«115649_j77996606095982_2_alg».proof.Proof.Gen.Kernel.Points
import proofs.«115649_j77996606095982_2_alg».proof.Proof.Gen.Kernel.Frame
import proofs.«115649_j77996606095982_2_alg».proof.Proof.Gen.KernelIdeal
import proofs.«115649_j77996606095982_2_alg».proof.Proof.Gen.KernelIdeal.Skeleton
import proofs.«115649_j77996606095982_2_alg».proof.Proof.Gen.KernelIdeal.Launch
import proofs.«115649_j77996606095982_2_alg».proof.Proof.Gen.KernelIdeal.Points
import proofs.«115649_j77996606095982_2_alg».proof.Proof.Gen.KernelIdeal.Frame
import proofs.«115649_j77996606095982_2_alg».proof.Proof.Gen.ReferenceIdeal
import proofs.«115649_j77996606095982_2_alg».proof.Proof.Gen.Pre_finite_inputs
import proofs.«115649_j77996606095982_2_alg».proof.Proof.Gen.KernelIdeal.Value
import proofs.«115649_j77996606095982_2_alg».proof.Proof.Gen.ReferenceIdeal.Run
import proofs.«115649_j77996606095982_2_alg».proof.Proof.Gen.ReferenceIdeal.Read
import proofs.«115649_j77996606095982_2_alg».proof.Proof.Whole
import proofs.«115649_j77996606095982_2_alg».proof.Proof.RefPooled
import Idealize.ShloMosaic.Adequacy
import Idealize.ShloMosaic.Init

noncomputable section

namespace Cert.Proof

open Idealize.ShloMosaic Idealize.ShloMosaic.TcCoe Idealize.SL.Sem Cert.Abcnn

/-- The word-level kernel terminates, faults nowhere and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the reference: its run, with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on the two arguments, both programs end with their two results at `pooledA` and `pooledB` of
    those arguments. -/
theorem algebraic : Cert.algebraic_KernelIdeal_ReferenceIdeal := by
  intro m ρ m' ρ' _ hagree
  refine ⟨fun c => pooledA (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c => pooledB (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨?_, ?_, (h c).2.2.1, (h c).2.2.2⟩)
    (Cert.ReferenceIdeal.Value.run (F := Ideal) m' ρ')
  · rw [(h c).1, Cert.ReferenceIdeal.Read.val_main_v48_eq, Cert.ReferenceIdeal.Pooled.first_eq, (hagree c).1, (hagree c).2]
  · rw [(h c).2.1, Cert.ReferenceIdeal.Read.val_main_v49_eq, Cert.ReferenceIdeal.Pooled.second_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
